-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn {F : FTy → Type} [FloatOps F] (main_arg0 : FVec F S16x2048x64 .f32) (main_arg1 : FVec F S16x2048x64 .f32) (main_arg2 : FVec F S16x2048x2048 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x2048 .f32 := Host.absf main_arg2
  let main_cst_2 : FVec F S_ .f32 := constant S_ .f32 0x7F800000#32
  let main_v10 : FVec F S16x2048x2048 .f32 := broadcastInDim S16x2048x2048 ![] bcast_S_S16x2048x2048 main_cst_2
  let main_v11 : IVec S16x2048x2048 1 := cmpf .olt main_v9 main_v10
  let main_c_3 : IVec S_ 1 := constantI S_ 1 1#1
  let main_v12 : IVec S_ 1 := (fun x v => Host.reduce IntOp.andi x v reducesTo_S16x2048x2048_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x512x2048 : Shape := ⟨3, ![1, 512, 2048]⟩
abbrev S1x2048x64 : Shape := ⟨3, ![1, 2048, 64]⟩
abbrev S1x512x64 : Shape := ⟨3, ![1, 512, 64]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩
abbrev S2048x64 : Shape := ⟨2, ![2048, 64]⟩
abbrev S512x64 : Shape := ⟨2, ![512, 64]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x2048, .f32⟩
  | .hbm, ⟨3, _⟩ => ⟨S16x2048x64, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x64, .f32⟩
  | .local _ .vmem, ⟨3, _⟩ => ⟨S1x2048x64, .f32⟩
  | .local _ .vmem, ⟨4, _⟩ => ⟨S1x512x64, .f32⟩
  | .local _ .vmem, ⟨5, _⟩ => ⟨S1x512x64, .f32⟩
  | .local _ .vmem, ⟨6, _⟩ => ⟨S1x512x64, .f32⟩
  | .local _ .vmem, ⟨7, _⟩ => ⟨S1x512x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  iota_S512x1_d0_w32 : S512x1.Iotas .tc 32 [0]
  iota_S1x2048_d1_w32 : S1x2048.Iotas .tc 32 [1]
  broadcasts_S512x1_S512x2048 : S512x1.Broadcasts S512x2048
  broadcasts_S1x2048_S512x2048 : S1x2048.Broadcasts S512x2048
  natLt_1_32 : 1 < 32
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .f32 = 32 ∨ (Rect.block (s := S16x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S16x2048x64.size a
  hwx0_2 : ∀ i : grid0.Coords, EltTy.bits .f32 = 32 ∨ (Rect.block (s := S16x2048x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S16x2048x64.size a
  hwx0_3 : ∀ i : grid0.Coords, EltTy.bits .f32 = 32 ∨ (Rect.block (s := S16x2048x64) S1x512x64.size (cc0_transform_3 i) (hinb0_3 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg2) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S2048x2048 : Shape := ⟨2, ![2048, 2048]⟩
abbrev S_ : Shape := ⟨0, ![]⟩
abbrev S16x2048 : Shape := ⟨2, ![16, 2048]⟩
abbrev S1x2048x2048 : Shape := ⟨3, ![1, 2048, 2048]⟩
abbrev S16x2048x1 : Shape := ⟨3, ![16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x2048, .f32⟩
  | .hbm, ⟨3, _⟩ => ⟨S2048x2048, .i32⟩
  | .hbm, ⟨4, _⟩ => ⟨S2048x2048, .i32⟩
  | .hbm, ⟨5, _⟩ => ⟨S_, .i32⟩
  | .hbm, ⟨6, _⟩ => ⟨S2048x2048, .i32⟩
  | .hbm, ⟨7, _⟩ => ⟨S2048x2048, .i32⟩
  | .hbm, ⟨8, _⟩ => ⟨S2048x2048, .i1⟩
  | .hbm, ⟨9, _⟩ => ⟨S2048x2048, .f32⟩
  | .hbm, ⟨10, _⟩ => ⟨S_, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S_, .f32⟩
  | .hbm, ⟨16, _⟩ => ⟨S16x2048, .f32⟩
  | .hbm, ⟨17, _⟩ => ⟨S16x2048, .f32⟩
  | .hbm, ⟨18, _⟩ => ⟨S1x2048x2048, .f32⟩
  | .hbm, ⟨19, _⟩ => ⟨S16x2048x2048, .f32⟩
  | .hbm, ⟨20, _⟩ => ⟨S16x2048x2048, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x2048x64, .f32⟩
  | .hbm, ⟨25, _⟩ => ⟨S_, .f32⟩
  | .hbm, ⟨26, _⟩ => ⟨S16x2048x64, .f32⟩
  | .hbm, ⟨27, _⟩ => ⟨S16x2048x64, .f32⟩
  | .hbm, ⟨28, _⟩ => ⟨S_, .f32⟩
  | .hbm, ⟨29, _⟩ => ⟨S16x2048x64, .f32⟩
  | .hbm, ⟨30, _⟩ => ⟨S16x2048x64, .f32⟩
  | .hbm, ⟨31, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S_S16x2048x64 : S_.BroadcastsInDim S16x2048x64 (![] : Fin 0 → Fin S16x2048x64.rank)
  dot_S16x2048x2048_S16x2048x64_S16x2048x64_2_1_1_2_0_0_wf : DotDims.WF S16x2048x2048 S16x2048x64 S16x2048x64 [2] [1] [1] [2] [0] [0]

variable [Facts₀]

def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Spec.lean ====
/-
  One graph-convolution layer, as a function of its three argument arrays, index by index, over the extended reals.

  For a stack of 16 graphs on 2048 nodes, with adjacency `A` [16, 2048, 2048], node features `x` [16, 2048, 64] and
  the incoming hidden state `h` [16, 2048, 64]:

    dinv[c, n]   = 1 / (1 + Σ_k A[c, n, k])                       the inverse degree, the self loop counted
    adj[c, n, k] = (A[c, n, k] + I[n, k]) · dinv[c, n]            the row-normalised adjacency with self loops
    layer[c,n,d] = ½ · h[c, n, d] + ½ · Σ_k adj[c, n, k] · x[c, k, d]

  Both programs compute exactly this term, operation for operation: the kernel one tile of 512 rows at a time, the
  reference on whole arrays. Nothing is regrouped, so no law of the extended reals beyond `0 + s = s` is needed, and
  finiteness of the inputs is never used. Also here: the two spellings of the identity matrix's entry (a comparison
  of two 32-bit words, converted to a float through a signed 32-bit word or directly from the one-bit result).
-/
import Idealize.ShloMosaic.PureOps.Ideal
import Idealize.ShloMosaic.PureOps.Ideal.Laws
import Idealize.ShloMosaic.Lib.ValueIdx

noncomputable section

namespace Cert.Gnn

open Idealize.ShloMosaic Idealize.ShloMosaic.ValueIdx

/-- The adjacency stack's shape and the feature stack's. -/
abbrev SAdj : Shape := ⟨3, ![16, 2048, 2048]⟩
abbrev SFeat : Shape := ⟨3, ![16, 2048, 64]⟩

/-- The f32 literals `1.0` and `0.5` as the extended reals their words denote; both programs carry the same words,
    so they are never evaluated. -/
abbrev one : EReal := Ideal.ofBits .f32 0x3F800000#32
abbrev half : EReal := Ideal.ofBits .f32 0x3F000000#32

/-- The identity matrix's entry at row `n`, column `k`. -/
def eye (n k : ℕ) : EReal := if n = k then 1 else 0

/-- The inverse degree of node `n` of graph `c`, the self loop counted: `1 / (1 + Σ_k A[c, n, k])`. -/
def dinv (A : SAdj.Idx → EReal) (c : Fin 16) (n : Fin 2048) : EReal :=
  Ideal.div one (one + ∑ k : Fin 2048, A (ix3 c n k))

/-- The row-normalised adjacency with self loops: `(A + I)[c, n, k] · dinv[c, n]`. -/
def adj (A : SAdj.Idx → EReal) (c : Fin 16) (n k : Fin 2048) : EReal :=
  (A (ix3 c n k) + eye n.val k.val) * dinv A c n

/-- The layer: half the incoming state plus half the neighbourhood average of the features. -/
def layer (A : SAdj.Idx → EReal) (x h : SFeat.Idx → EReal) : SFeat.Idx → EReal := fun i =>
  half * h i + half * ∑ k : Fin 2048, adj A (i 0) (i 1) k * x (ix3 (i 0) k (i 2))

/-! ## The identity matrix's entry, as each program spells it -/

/-- Two naturals below 2³² are equal iff their 32-bit words are. -/
theorem ofNat32_eq_iff {n k : ℕ} (hn : n < 2 ^ 32) (hk : k < 2 ^ 32) : BitVec.ofNat 32 n = BitVec.ofNat 32 k ↔ n = k := by
  constructor
  · intro h
    have := congrArg BitVec.toNat h
    simp only [BitVec.toNat_ofNat] at this
    rwa [Nat.mod_eq_of_lt hn, Nat.mod_eq_of_lt hk] at this
  · rintro rfl; rfl

/-- A word comparison for equality, widened to 32 bits and converted as a signed integer, is `1` or `0`. -/
theorem sitofp_extui_cmpi_eq (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  unfold IntOp.cmpi
  by_cases h : a = b
  · rw [if_pos h, show (a == b) = true from beq_iff_eq.mpr h]
    show ((((1 : ℤ) : ℝ)) : EReal) = 1
    norm_num
  · rw [if_neg h, show (a == b) = false from beq_eq_false_iff_ne.mpr h]
    show ((((0 : ℤ) : ℝ)) : EReal) = 0
    norm_num

/-- The same comparison converted directly from its one bit, unsigned. -/
theorem uitofp_cmpi_eq (a b : BitVec 32) :
    FloatOps.uitofp (F := Ideal) .f32 (IntOp.cmpi .eq a b) = if a = b then (1 : EReal) else 0 := by
  show ((((IntOp.cmpi .eq a b).toNat : ℕ) : ℝ) : EReal) = _
  unfold IntOp.cmpi
  by_cases h : a = b
  · rw [if_pos h, show (a == b) = true from beq_iff_eq.mpr h]
    show ((((1 : ℕ) : ℝ)) : EReal) = 1
    norm_num
  · rw [if_neg h, show (a == b) = false from beq_eq_false_iff_ne.mpr h]
    show ((((0 : ℕ) : ℝ)) : EReal) = 0
    norm_num

/-- The kernel's entry: row `512 · tile + r` of the tile's rows, built from the tile number as a word, against column `k`. -/
theorem eye_of_tile_words {tile r k : ℕ} (ht : tile < 4) (hr : r < 512) (hk : k < 2048) :
    FloatOps.sitofp (F := Ideal) .f32
        ((IntOp.cmpi .eq (IntOp.addi (IntOp.muli (BitVec.ofNat 32 tile) 512#32) (BitVec.ofNat 32 r)) (BitVec.ofNat 32 k)).setWidth 32)
      = eye (512 * tile + r) k := by
  rw [sitofp_extui_cmpi_eq]
  have e : IntOp.addi (IntOp.muli (BitVec.ofNat 32 tile) 512#32) (BitVec.ofNat 32 r) = BitVec.ofNat 32 (512 * tile + r) := by
    show BitVec.ofNat 32 tile * BitVec.ofNat 32 512 + BitVec.ofNat 32 r = _
    rw [← BitVec.ofNat_mul, ← BitVec.ofNat_add, Nat.mul_comm]
  rw [e]
  unfold eye
  exact if_congr (ofNat32_eq_iff (by omega) (by omega)) rfl rfl

/-- The reference's entry: row `n` (plus the zero offset of `jnp.eye`'s diagonal) against column `k`. -/
theorem eye_of_iota_words {n k : ℕ} (hn : n < 2048) (hk : k < 2048) :
    FloatOps.uitofp (F := Ideal) .f32 (IntOp.cmpi .eq (IntOp.addi (BitVec.ofNat 32 n) 0#32) (BitVec.ofNat 32 k)) = eye n k := by
  rw [uitofp_cmpi_eq]
  have e : IntOp.addi (BitVec.ofNat 32 n) 0#32 = BitVec.ofNat 32 n := by
    show BitVec.ofNat 32 n + 0#32 = _
    exact BitVec.add_zero _
  rw [e]
  unfold eye
  exact if_congr (ofNat32_eq_iff (by omega) (by omega)) rfl rfl

end Cert.Gnn

end
-- ==== Proof.Reference.lean ====
/-
  The reference computes the layer: its composed host operations, read one at a time at an index, are
  `½·h + ½·Σ_k ((A + I)·dinv)[c,n,k] · x[c,k,d]` with `dinv = 1 / (1 + (0 + Σ_k A[c,n,k]))`.
  The only algebra is `0 + s = s` for the row sum's initial value; the rest is reading the broadcasts' and the
  contraction's index maps at coordinates.
-/
import proofs.«164625_j75153337745451_1_alg».proof.Proof.Gen.ReferenceIdeal.Read
import proofs.«164625_j75153337745451_1_alg».proof.Proof.Spec

noncomputable section

namespace Cert.Gnn.Ref

open Cert.ReferenceIdeal Cert.ReferenceIdeal.Read Idealize.ShloMosaic Idealize.ShloMosaic.ValueIdx Cert.Gnn

/-- The inverse-degree stage at `(c, n)`: the reference's `1 / (1 + Σ_k A[c,n,k])`, the sum started from `0`. -/
theorem dinv_stage (A : SAdj.Idx → EReal) (c : Fin 16) (n : Fin 2048) :
    val_main_v10 (F := Ideal) A (ix2 c n) = dinv A c n := by
  rw [val_main_v10_apply, val_main_v9_apply, val_main_cst_1_apply, val_main_v8_apply, val_main_v7_apply,
    val_main_cst_0_apply, val_main_v6_apply, val_main_cst_apply]
  unfold dinv
  simp only [Ideal.hostDivf_def, Ideal.addf_def, Ideal.ofBits_def, Ideal.ofBits_zero_f32, zero_add]
  have e : ∀ k : Fin 2048, idx_main_v6 (ix2 c n) k = ix3 c n k := fun k =>
    funext fun a => Fin.ext (by match a with | ⟨0, _⟩ => rfl | ⟨1, _⟩ => rfl | ⟨2, _⟩ => rfl)
  simp only [e]

/-- The identity-matrix stage, broadcast over the graphs, at `(c, n, k)`. -/
theorem eye_stage (c : Fin 16) (n k : Fin 2048) :
    val_main_v12 (F := Ideal) (ix3 c n k) = eye n.val k.val := by
  rw [val_main_v12_apply, val_main_v11_apply, val_main_v5_apply, val_main_v4_apply, val_main_v3_apply,
    val_main_v0_apply, val_main_v2_apply, val_main_c_apply, val_main_v1_apply]
  exact eye_of_iota_words n.isLt k.isLt

/-- The normalised-adjacency stage at `(c, n, k)`. -/
theorem adj_stage (A : SAdj.Idx → EReal) (c : Fin 16) (n k : Fin 2048) :
    val_main_v16 (F := Ideal) A (ix3 c n k) = adj A c n k := by
  rw [val_main_v16_apply, val_main_v13_apply, val_main_v15_apply, val_main_v14_apply, eye_stage]
  have e : idx_main_v14 (idx_main_v15 (ix3 c n k)) = ix2 c n :=
    funext fun a => Fin.ext (by match a with | ⟨0, _⟩ => rfl | ⟨1, _⟩ => rfl)
  rw [e, dinv_stage]
  rfl

/-- The reference's result, stage by stage, is the layer. -/
theorem result_eq (x h : SFeat.Idx → EReal) (A : SAdj.Idx → EReal) :
    val_main_v22 (F := Ideal) x h A = layer A x h := by
  funext i
  obtain ⟨c, n, d, rfl⟩ : ∃ (c : Fin 16) (n : Fin 2048) (d : Fin 64), i = ix3 c n d := ⟨i 0, i 1, i 2, eq_ix3 i⟩
  rw [val_main_v22_apply, val_main_v19_apply, val_main_v18_apply, val_main_cst_2_apply, val_main_v21_apply,
    val_main_v20_apply, val_main_cst_3_apply, val_main_v17_apply]
  unfold layer
  simp only [Ideal.addf_def, Ideal.mulf_def, Ideal.ofBits_def]
  have el : ∀ k : Fin 2048, lidx_main_v17 (ix3 c n d) k = ix3 c n k := fun k =>
    funext fun a => Fin.ext (by match a with | ⟨0, _⟩ => rfl | ⟨1, _⟩ => rfl | ⟨2, _⟩ => rfl)
  have er : ∀ k : Fin 2048, ridx_main_v17 (ix3 c n d) k = ix3 c k d := fun k =>
    funext fun a => Fin.ext (by match a with | ⟨0, _⟩ => rfl | ⟨1, _⟩ => rfl | ⟨2, _⟩ => rfl)
  simp only [el, er, adj_stage]

end Cert.Gnn.Ref

end
-- ==== Proof.LibColumn.lean ====
/-
  General lemmas for a `jnp.sum(…, keepdims=True)`-style column: a vector of row values viewed as a one-column matrix
  and broadcast back over the columns, and the row sum itself, each read at explicit coordinates. For any sizes.
-/
import Idealize.ShloMosaic.Lib.Pipeline.Value
import Idealize.ShloMosaic.Lib.ValueIdx
import Idealize.ShloMosaic.PureOps.Ideal.Laws

noncomputable section

namespace Cert.LibColumn

open Idealize.ShloMosaic Idealize.ShloMosaic.ValueIdx

variable {α : Type}

/-- An `[a]` vector cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values, a lane sum of an `[a, b]` matrix over its columns reads, at row `r`, the sum of that row. -/
theorem multiReduction_rows_apply {a b : ℕ} {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ x acc h hφ hacc (ix1 r) = ∑ k : Fin b, x (ix2 r k) := by
  refine (Ideal.multiReduction_add_single x acc h hφ hacc (ix1 r)).trans ?_
  refine Finset.sum_congr rfl fun k _ => congrArg x ?_
  funext c
  apply Fin.ext
  match c with
  | ⟨0, _⟩ => rfl
  | ⟨1, _⟩ => rfl

end Cert.LibColumn

end
-- ==== Proof.Tile.lean ====
/-
  One tile of the kernel: what its body stores, read at an index, as a function of the three blocks it loads.

  At grid point `(c, tile)` the body loads 512 rows of graph `c`'s adjacency (`a`, [1, 512, 2048]), all of its
  features (`x`, [1, 2048, 64]) and the 512 rows of the incoming state (`h`, [1, 512, 64]); it stores

    ½ · h[r, d] + ½ · Σ_k ((a[r, k] + I[512·tile + r, k]) · 1 / (1 + Σ_k' a[r, k'])) · x[k, d]

  at `(r, d)`. The identity's rows are rebuilt from the tile number; the change of float format in front of the matrix
  product is the identity on the extended reals; the product into a zero accumulator is the plain sum over `k`.
-/
import proofs.«164625_j75153337745451_1_alg».proof.Proof.Gen.KernelIdeal.Skeleton
import proofs.«164625_j75153337745451_1_alg».proof.Proof.Spec
import proofs.«164625_j75153337745451_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.Gnn.Tile

open Cert.KernelIdeal Cert.KernelIdeal.Gen Idealize.ShloMosaic Idealize.ShloMosaic.ValueIdx Cert.Gnn Cert.LibColumn

variable (i : grid0.Coords) (a : Vec Ideal S1x512x2048 .f32) (x : Vec Ideal S1x2048x64 .f32) (h : Vec Ideal S1x512x64 .f32)

/-! ## The body's pieces -/

/-- The tile's rows of the adjacency, as a matrix. -/
def rows : FVec Ideal S512x2048 .f32 := shapeCast S512x2048 a shapeCasts_S1x512x2048_S512x2048

/-- Each row's inverse degree, as a column. -/
def rowDinv : FVec Ideal S512x1 .f32 :=
  divf (broadcast S512x1 (Scalar.ofBits .f32 0x3F800000#32))
    (addf (broadcast S512x1 (Scalar.ofBits .f32 0x3F800000#32))
      (shapeCast S512x1 (multiReduction .add [1] S512 (rows a) 0x00000000#32 reduces_S512x2048_S512 (.inl rfl) rfl) shapeCasts_S512_S512x1))

/-- The identity matrix's rows `512·tile … 512·tile + 511`. -/
def tileEye : FVec Ideal S512x2048 .f32 :=
  sitofp .f32 (extui 32 (cmpi .eq
    (broadcastTo S512x2048 (addi (broadcast S512x1 (Scalar.muli (BitVec.ofNat 32 (i 1).val) 512#32)) (iota .tc S512x1 32 [0] iota_S512x1_d0_w32)) broadcasts_S512x1_S512x2048)
    (broadcastTo S512x2048 (iota .tc S1x2048 32 [1] iota_S1x2048_d1_w32) broadcasts_S1x2048_S512x2048)) natLt_1_32)

/-- The tile's rows of the normalised adjacency with self loops. -/
def tileAdj : FVec Ideal S512x2048 .f32 :=
  mulf (addf (rows a) (tileEye i)) (broadcastTo S512x2048 (rowDinv a) broadcasts_S512x1_S512x2048)

/-- The features as a matrix. -/
def feats : FVec Ideal S2048x64 .f32 := shapeCast S2048x64 x shapeCasts_S1x2048x64_S2048x64

/-- The matrix product of the tile's normalised rows with the features, both first cut to bf16. -/
def agg : FVec Ideal S512x64 .f32 :=
  matmul dot_S512x2048_S2048x64_S512x64_1_0_0_1_n_n none (truncf .bf16 (tileAdj i a) bitsLt_bf16_f32)
    (truncf .bf16 (feats x) bitsLt_bf16_f32) (constant (F := Ideal) S512x64 .f32 0x00000000#32)

/-- The stored value is these pieces put together: the printed body, its intermediate values named. -/
theorem pay_eq : k0_pay1 (F := Ideal) i a x h
    = shapeCast S1x512x64
        (addf (mulf (broadcast S512x64 (Scalar.ofBits .f32 0x3F000000#32)) (shapeCast S512x64 h shapeCasts_S1x512x64_S512x64))
          (mulf (broadcast S512x64 (Scalar.ofBits .f32 0x3F000000#32)) (agg i a x)))
        shapeCasts_S512x64_S1x512x64 := rfl

/-! ## Each piece at an index -/

theorem rows_apply (r : Fin 512) (k : Fin 2048) : rows a (ix2 r k) = a (ix3 (0 : Fin 1) r k) :=
  shapeCast_1ab_ab_apply a _ r k

theorem feats_apply (k : Fin 2048) (d : Fin 64) : feats x (ix2 k d) = x (ix3 (0 : Fin 1) k d) :=
  shapeCast_1ab_ab_apply x _ k d

/-- The inverse degree of row `r` of the tile. -/
theorem rowDinv_apply (r : Fin 512) (u : Fin 1) :
    rowDinv a (ix2 r u) = Ideal.div one (one + ∑ k : Fin 2048, a (ix3 (0 : Fin 1) r k)) := by
  unfold rowDinv
  rw [divf_apply, addf_apply, broadcast_apply, shapeCast_a_a1_apply]
  have hs : multiReduction .add [1] S512 (rows a) 0x00000000#32 reduces_S512x2048_S512 (.inl rfl) rfl (ix1 r)
      = ∑ k : Fin 2048, a (ix3 (0 : Fin 1) r k) :=
    (multiReduction_rows_apply (rows a) _ _ _ _ r).trans (Finset.sum_congr rfl fun k _ => rows_apply a r k)
  exact congrArg (fun s => Ideal.div one (one + s)) hs

/-- The identity's entry at the tile's row `r`, column `k`. -/
theorem tileEye_apply (r : Fin 512) (k : Fin 2048) : tileEye i (ix2 r k) = eye (512 * (i 1).val + r.val) k.val := by
  unfold tileEye
  rw [sitofp_apply, extui_apply]
  show FloatOps.sitofp .f32 ((IntOp.cmpi .eq
      (broadcastTo S512x2048 (addi (broadcast S512x1 (Scalar.muli (BitVec.ofNat 32 (i 1).val) 512#32)) (iota .tc S512x1 32 [0] iota_S512x1_d0_w32)) broadcasts_S512x1_S512x2048 (ix2 r k))
      (broadcastTo S512x2048 (iota .tc S1x2048 32 [1] iota_S1x2048_d1_w32) broadcasts_S1x2048_S512x2048 (ix2 r k))).setWidth 32) = _
  rw [broadcastTo_a1_ab_apply, broadcastTo_1b_ab_apply, iota_single_apply]
  show FloatOps.sitofp .f32 ((IntOp.cmpi .eq
      (IntOp.addi (IntOp.muli (BitVec.ofNat 32 (i 1).val) 512#32) (iota .tc S512x1 32 [0] iota_S512x1_d0_w32 (ix2 r (0 : Fin 1))))
      (BitVec.ofNat 32 k.val)).setWidth 32) = _
  rw [iota_single_apply]
  exact eye_of_tile_words (i 1).isLt r.isLt k.isLt

/-- The normalised adjacency's entry at the tile's row `r`, column `k`. -/
theorem tileAdj_apply (r : Fin 512) (k : Fin 2048) :
    tileAdj i a (ix2 r k)
      = (a (ix3 (0 : Fin 1) r k) + eye (512 * (i 1).val + r.val) k.val) * Ideal.div one (one + ∑ k' : Fin 2048, a (ix3 (0 : Fin 1) r k')) := by
  unfold tileAdj
  rw [mulf_apply, addf_apply, rows_apply, tileEye_apply, broadcastTo_a1_ab_apply, rowDinv_apply]

/-! ## The matrix product at an index -/

theorem lhs_agg_0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_agg_1 (j : S512x64.Idx) (q : dot_S512x2048_S2048x64_S512x64_1_0_0_1_n_n.contr.Idx) :
    (dot_S512x2048_S2048x64_S512x64_1_0_0_1_n_n.lhsIdx j q 1).val = (q ⟨0, by decide⟩).val :=
  dot_S512x2048_S2048x64_S512x64_1_0_0_1_n_n.lhsIdx_val_of_single rfl j q
theorem rhs_agg_0 (j : S512x64.Idx) (q : dot_S512x2048_S2048x64_S512x64_1_0_0_1_n_n.contr.Idx) :
    (dot_S512x2048_S2048x64_S512x64_1_0_0_1_n_n.rhsIdx j q 0).val = (q ⟨0, by decide⟩).val :=
  dot_S512x2048_S2048x64_S512x64_1_0_0_1_n_n.rhsIdx_val_of_single rfl j q
theorem rhs_agg_1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product at `(r, d)`: the sum over the 2048 neighbours `k` of the normalised adjacency's entry times the feature. -/
theorem agg_apply (r : Fin 512) (d : Fin 64) :
    agg i a x (ix2 r d) = ∑ k : Fin 2048, tileAdj i a (ix2 r k) * feats x (ix2 k d) := by
  unfold agg
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r d) ((ValueIdx.contrEquiv1 dot_S512x2048_S2048x64_S512x64_1_0_0_1_n_n 2048 rfl rfl).symm k) = ix2 r k := funext fun c => Fin.ext (by
    match c with
    | ⟨0, _⟩ => exact lhs_agg_0 _ _
    | ⟨1, _⟩ => exact (lhs_agg_1 _ _).trans hk)
  have er : dot_S512x2048_S2048x64_S512x64_1_0_0_1_n_n.rhsIdx (ix2 r d) ((ValueIdx.contrEquiv1 dot_S512x2048_S2048x64_S512x64_1_0_0_1_n_n 2048 rfl rfl).symm k) = ix2 k d := funext fun c => Fin.ext (by
    match c with
    | ⟨0, _⟩ => exact (rhs_agg_0 _ _).trans hk
    | ⟨1, _⟩ => exact rhs_agg_1 _ _)
  rw [el, er, truncf_apply, truncf_apply]

/-! ## The stored value at an index -/

/-- What the body stores at `(u, r, d)` of its output block, from the three blocks it loads. -/
theorem pay_apply (u : Fin 1) (r : Fin 512) (d : Fin 64) :
    k0_pay1 (F := Ideal) i a x h (ix3 u r d)
      = half * h (ix3 (0 : Fin 1) r d)
        + half * ∑ k : Fin 2048, ((a (ix3 (0 : Fin 1) r k) + eye (512 * (i 1).val + r.val) k.val)
            * Ideal.div one (one + ∑ k' : Fin 2048, a (ix3 (0 : Fin 1) r k'))) * x (ix3 (0 : Fin 1) k d) := by
  rw [pay_eq, shapeCast_ab_1ab_apply, addf_apply, mulf_apply, mulf_apply, broadcast_apply, shapeCast_1ab_ab_apply, agg_apply]
  simp only [tileAdj_apply, feats_apply]
  rfl

/-! ## A tile is a block of the layer -/

/-- The layer at explicit coordinates. -/
theorem layer_ix3 (A : SAdj.Idx → EReal) (X H : SFeat.Idx → EReal) (c : Fin 16) (n : Fin 2048) (d : Fin 64) :
    layer A X H (ix3 c n d) = half * H (ix3 c n d) + half * ∑ k : Fin 2048, adj A c n k * X (ix3 c k d) := rfl

/-- When the three loaded blocks are the pieces of the whole arrays that the tile `(c, i 1)` covers — rows
    `512·(i 1) … 512·(i 1) + 511` of graph `c`'s adjacency and state, all of graph `c`'s features — the value the body
    stores at `(u, r, d)` is the layer's value at `(c, 512·(i 1) + r, d)`: the identity's rows the body rebuilds from the
    tile number are the rows of the whole identity at those row numbers. -/
theorem pay_eq_layer (A : SAdj.Idx → EReal) (X H : SFeat.Idx → EReal) (c : Fin 16)
    (row : Fin 512 → Fin 2048) (hrow : ∀ r, (row r).val = 512 * (i 1).val + r.val)
    (ha : ∀ (r : Fin 512) (k : Fin 2048), a (ix3 (0 : Fin 1) r k) = A (ix3 c (row r) k))
    (hx : ∀ (k : Fin 2048) (d : Fin 64), x (ix3 (0 : Fin 1) k d) = X (ix3 c k d))
    (hh : ∀ (r : Fin 512) (d : Fin 64), h (ix3 (0 : Fin 1) r d) = H (ix3 c (row r) d))
    (u : Fin 1) (r : Fin 512) (d : Fin 64) :
    k0_pay1 (F := Ideal) i a x h (ix3 u r d) = layer A X H (ix3 c (row r) d) := by
  rw [pay_apply, layer_ix3]
  unfold adj dinv
  simp only [ha, hx, hh, hrow]

end Cert.Gnn.Tile

end
-- ==== Proof.Blocks.lean ====
/-
  From the tiles to the whole result array.

  The 64 grid points `(c, tile)` write the 64 blocks `[c, 512·tile … 512·tile + 511, 0 … 63]` of the [16, 2048, 64] result;
  the blocks tile the array. At a point the adjacency's and the state's windows sit at the same block coordinates as
  the output's, the features' window at `(c, 0, 0)`, and the body's grid coordinate 1 is the tile number: so what the
  point writes back is the layer of the whole argument arrays read through the point's block, and after the run the
  result array is the layer.
-/
import proofs.«164625_j75153337745451_1_alg».proof.Proof.PatchedValueKernelIdeal
import proofs.«164625_j75153337745451_1_alg».proof.Proof.Tile

noncomputable section

namespace Cert.Gnn.Blocks

open Cert.KernelIdeal Cert.KernelIdeal.Gen Cert.KernelIdeal.GenP Idealize.ShloMosaic Idealize.ShloMosaic.TcCoe Idealize.SL.Sem
open Idealize.ShloMosaic.ValueIdx Cert.Gnn
open Idealize.ShloMosaic.Pipeline (Dat)

variable (m : (ℓ : Loc nD τ sig) → Buf (Elt Ideal) ℓ) (ρ : Dev nD → PrngReg)

theorem origin : (![0, 0, 0] : Fin 3 → Nat) = fun _ => 0 := funext fun a => by fin_cases a <;> rfl

/-- The printed index maps, decided over the 64 grid points: the adjacency's and the state's blocks move with the
    output's; the features' block is the whole of graph `c`; the output's block coordinates stay in range; and the
    body's second grid coordinate is the output block's row coordinate (the tile number). -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = win0_3.index t (1 : Fin 3)
    ∧ win0_2.index t (2 : Fin 3) = 0
    ∧ win0_3.index t (2 : Fin 3) = 0 ∧ win0_3.index t (0 : Fin 3) ≤ 15 ∧ win0_3.index t (1 : Fin 3) ≤ 3
    ∧ ((grid0.coords t) 1).val = win0_3.index t (1 : Fin 3) :=
  (by decide +kernel : ∀ t : Fin grid0.N, _)

/-- Every block of the result is some point's. -/
theorem index_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-- What point `t` writes back is block `t` of the layer of the argument arrays as the region finds them. -/
theorem flushed_eq (c : Dev nD) (t : Fin cfg0.N) :
    (dats m 0 c).flushed 3 t
      = ((cfg0.win 3).blk t).view.read (Elt Ideal) (layer (V m c main_arg2) (V m c main_arg0) (V m c main_arg1)) := by
  rw [Cert.KernelIdeal.ValueP.flushed3]
  unfold out0_3
  rw [View.canon_unit_zero origin]
  simp only [View.ld_unit_zero (S := S1x512x2048) origin, View.ld_unit_zero (S := S1x2048x64) origin,
    View.ld_unit_zero (S := S1x512x64) origin]
  obtain ⟨a0, a1, a2, x0, x1, x2, h0, h1, h2, o2, b0, b1, ec⟩ := index_facts t
  funext j
  obtain ⟨u, r, d, rfl⟩ : ∃ (u : Fin 1) (r : Fin 512) (d : Fin 64), j = ix3 u r d := ⟨j 0, j 1, j 2, eq_ix3 j⟩
  have hu : u.val = 0 := by omega
  show k0_pay1 (F := Ideal) (grid0.coords t) (iblk m c 0 t) (iblk m c 1 t) (iblk m c 2 t) (ix3 u r d)
      = layer (V m c main_arg2) (V m c main_arg0) (V m c main_arg1) (((cfg0.win 3).blk t).view.emb (ix3 u r d))
  have hemb : ((cfg0.win 3).blk t).view.emb (ix3 u r d)
      = ix3 (⟨win0_3.index t (0 : Fin 3), by omega⟩ : Fin 16) (⟨512 * win0_3.index t (1 : Fin 3) + r.val, by omega⟩ : Fin 2048) d := by
    funext ax; apply Fin.ext
    match ax with
    | ⟨0, _⟩ => show win0_3.index t (0 : Fin 3) * 1 + 1 * u.val = win0_3.index t (0 : Fin 3); omega
    | ⟨1, _⟩ => show win0_3.index t (1 : Fin 3) * 512 + 1 * r.val = 512 * win0_3.index t (1 : Fin 3) + r.val; omega
    | ⟨2, _⟩ => show win0_3.index t (2 : Fin 3) * 64 + 1 * d.val = d.val; omega
  rw [hemb]
  refine Tile.pay_eq_layer (grid0.coords t) (iblk m c 0 t) (iblk m c 1 t) (iblk m c 2 t)
    (V m c main_arg2) (V m c main_arg0) (V m c main_arg1) (⟨win0_3.index t (0 : Fin 3), by omega⟩ : Fin 16)
    (fun r' => (⟨512 * win0_3.index t (1 : Fin 3) + r'.val, by omega⟩ : Fin 2048))
    (fun r' => by show 512 * win0_3.index t (1 : Fin 3) + r'.val = 512 * ((grid0.coords t) 1).val + r'.val; rw [ec])
    ?_ ?_ ?_ u r d
  · intro r' k
    show V m c main_arg2 (((cfg0.win 0).blk t).view.emb (ix3 (0 : Fin 1) r' k)) = V m c main_arg2 _
    refine congrArg (V m c main_arg2) (funext fun ax => Fin.ext ?_)
    match ax with
    | ⟨0, _⟩ => show win0_0.index t (0 : Fin 3) * 1 + 1 * 0 = win0_3.index t (0 : Fin 3); omega
    | ⟨1, _⟩ => show win0_0.index t (1 : Fin 3) * 512 + 1 * r'.val = 512 * win0_3.index t (1 : Fin 3) + r'.val; omega
    | ⟨2, _⟩ => show win0_0.index t (2 : Fin 3) * 2048 + 1 * k.val = k.val; omega
  · intro k d'
    show V m c main_arg0 (((cfg0.win 1).blk t).view.emb (ix3 (0 : Fin 1) k d')) = V m c main_arg0 _
    refine congrArg (V m c main_arg0) (funext fun ax => Fin.ext ?_)
    match ax with
    | ⟨0, _⟩ => show win0_1.index t (0 : Fin 3) * 1 + 1 * 0 = win0_3.index t (0 : Fin 3); omega
    | ⟨1, _⟩ => show win0_1.index t (1 : Fin 3) * 2048 + 1 * k.val = k.val; omega
    | ⟨2, _⟩ => show win0_1.index t (2 : Fin 3) * 64 + 1 * d'.val = d'.val; omega
  · intro r' d'
    show V m c main_arg1 (((cfg0.win 2).blk t).view.emb (ix3 (0 : Fin 1) r' d')) = V m c main_arg1 _
    refine congrArg (V m c main_arg1) (funext fun ax => Fin.ext ?_)
    match ax with
    | ⟨0, _⟩ => show win0_2.index t (0 : Fin 3) * 1 + 1 * 0 = win0_3.index t (0 : Fin 3); omega
    | ⟨1, _⟩ => show win0_2.index t (1 : Fin 3) * 512 + 1 * r'.val = 512 * win0_3.index t (1 : Fin 3) + r'.val; omega
    | ⟨2, _⟩ => show win0_2.index t (2 : Fin 3) * 64 + 1 * d'.val = d'.val; omega

/-- An index of the result is in point `t`'s block iff each coordinate is in the block's range on its axis. -/
theorem mem_block (t : Fin cfg0.N) (i : S16x2048x64.Idx) :
    i ∈ ((cfg0.win 3).blk t).view.set
      ↔ ∀ ax : Fin 3, win0_3.index t ax * S1x512x64.size ax ≤ (i ax).val ∧ (i ax).val < win0_3.index t ax * S1x512x64.size ax + S1x512x64.size ax := by
  show i ∈ ((View.whole main_v0).slice (win0_3.rect t)).set ↔ _
  rw [View.set_slice_whole, Rect.mem_set_unit]
  exact Iff.rfl

/-- The blocks cover the result: row `n` of graph `c` lies in the block of point `(c, n / 512)`. -/
theorem cover (i : S16x2048x64.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := index_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_block]
  intro ax
  match ax with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- The result array after the run is the layer of the argument arrays. -/
theorem final (c : Dev nD) :
    (dats m 0 c).arrAt 3 cfg0.N
      = layer (m ((c : Thread nD τ).loc main_arg2)) (m ((c : Thread nD τ).loc main_arg0)) (m ((c : Thread nD τ).loc main_arg1)) :=
  (dats m 0 c).arrAt_eq_of_cover 3
    (layer (m ((c : Thread nD τ).loc main_arg2)) (m ((c : Thread nD τ).loc main_arg0)) (m ((c : Thread nD τ).loc main_arg1)))
    (fun t _ => flushed_eq m c t) cover

/-- The kernel's run: every weakly fair execution terminates with the result array at the layer of the arguments,
    the arguments unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg2)) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.ValueP.run_blocks m ρ)

end Cert.Gnn.Blocks

end
-- ==== Proof.lean ====
/-
  A graph-convolution layer as a Pallas kernel against its jnp reference, over the extended reals.

  For 16 graphs on 2048 nodes with adjacency `A`, features `x` and incoming state `h`, both programs compute

    out[c, n, d] = ½ · h[c, n, d] + ½ · Σ_k ((A[c, n, k] + I[n, k]) · 1 / (1 + Σ_k' A[c, n, k'])) · x[c, k, d]

  (`Cert.Gnn.layer`, Proof/Spec.lean). The reference does it on whole arrays: an iota comparison for `I`, a row sum, a
  division, two broadcasts, a batched `dot_general` (Proof/Reference.lean reads those stages at an index). The kernel
  does it one tile of 512 rows of one graph at a time, on a 16 × 4 grid: it loads the tile's rows of `A`, all of the
  graph's `x` and the tile's rows of `h`, rebuilds the tile's rows of `I` from the tile number, sums and divides per
  row, cuts both factors to bf16 (the identity on the extended reals) and multiplies them on the matrix unit into a
  zero accumulator (Proof/Tile.lean reads the stored value at an index; Proof/LibColumn.lean has the column forms it
  needs); the 64 blocks tile the result (Proof/Blocks.lean). The two terms agree operation for operation, so the only
  law used is `0 + s = s` for the reference's row sum, and the inputs' finiteness is never needed.

  The three frames: the two kernel programs' from the frame run of the pipeline (the stored value reads the grid
  position, so the frame is taken at the point's coordinates), the reference's from its run. The idealization rewrote
  nothing, so `preserves` is `True`.
-/
import proofs.«164625_j75153337745451_1_alg».proof.Defs
import proofs.«164625_j75153337745451_1_alg».proof.Proof.Gen.Kernel
import proofs.«164625_j75153337745451_1_alg».proof.Proof.Gen.Kernel.Skeleton
import proofs.«164625_j75153337745451_1_alg».proof.Proof.Gen.Kernel.Launch
import proofs.«164625_j75153337745451_1_alg».proof.Proof.Gen.Kernel.Points
import proofs.«164625_j75153337745451_1_alg».proof.Proof.PatchedFrameKernel
import proofs.«164625_j75153337745451_1_alg».proof.Proof.Gen.KernelIdeal
import proofs.«164625_j75153337745451_1_alg».proof.Proof.Gen.KernelIdeal.Skeleton
import proofs.«164625_j75153337745451_1_alg».proof.Proof.Gen.KernelIdeal.Launch
import proofs.«164625_j75153337745451_1_alg».proof.Proof.Gen.KernelIdeal.Points
import proofs.«164625_j75153337745451_1_alg».proof.Proof.PatchedFrameKernelIdeal
import proofs.«164625_j75153337745451_1_alg».proof.Proof.PatchedValueKernelIdeal
import proofs.«164625_j75153337745451_1_alg».proof.Proof.Gen.ReferenceIdeal
import proofs.«164625_j75153337745451_1_alg».proof.Proof.Gen.ReferenceIdeal.Run
import proofs.«164625_j75153337745451_1_alg».proof.Proof.Gen.ReferenceIdeal.Read
import proofs.«164625_j75153337745451_1_alg».proof.Proof.Gen.Pre_finite_inputs
import proofs.«164625_j75153337745451_1_alg».proof.Proof.Spec
import proofs.«164625_j75153337745451_1_alg».proof.Proof.Reference
import proofs.«164625_j75153337745451_1_alg».proof.Proof.Tile
import proofs.«164625_j75153337745451_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end with the layer of those arguments in their
    result: the kernel's array block by block (`Blocks.run`), the reference's stage by stage (`Ref.result_eq`). -/
theorem algebraic : Cert.algebraic_KernelIdeal_ReferenceIdeal := by
  intro m ρ m' ρ' _ hagree
  refine ⟨fun c => Cert.Gnn.layer (m ((c.tc : Thread Cert.KernelIdeal.nD Cert.KernelIdeal.τ).loc Cert.KernelIdeal.main_arg2))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Gnn.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v22_eq _ _ _).trans (Cert.Gnn.Ref.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
